-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S256x8192 : Shape := ⟨2, ![256, 8192]⟩

abbrev nBuf : Space → Nat
  | .hbm => 2
  | .vmem => 4
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .local _ .vmem, ⟨0, _⟩ => ⟨S256x8192, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x8192_S256x8192_0_0 : ∀ a, (![0, 0] : Fin 2 → Nat) a + S256x8192.size a ≤ S256x8192.size a
  h_S256x8192 : 0 < S256x8192.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .f32 = 32 ∨ (Rect.block (s := S8192x8192) S256x8192.size (cc0_transform_1 i) (hinb0_1 i)).WholeWords (EltTy.packing .f32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x8192 : Shape := ⟨2, ![8192, 8192]⟩

abbrev nBuf : Space → Nat
  | .hbm => 1
  | .vmem => 0
  | .smem => 0
  | _ => 0

abbrev bufTy : (tb : Table) → Fin (tcTables nBuf tb) → BufTy
  | .hbm, ⟨0, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.CopyValue.lean ====
/-
  The kernel is a copy, one block of 256 whole rows at a time. At grid point t its body loads the input
  window's block — rows 256·t … 256·t + 255 of the argument array, all 8192 columns — and stores it unchanged
  into the output window's staging buffer, which the pipeline writes back to the same rows of the result array.
  Both windows use the same index map (block (t, 0)), so what point t writes back is block t of the argument
  array itself; the 32 blocks tile the 8192 rows, so after the run the result array IS the argument array.
-/
import proofs.«122735_j27848567947409_1_alg».proof.Proof.Gen.KernelIdeal.Value

noncomputable section

namespace Cert.KernelIdeal.CopyValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The body's one load and one store both start at the buffer's origin. -/
theorem origin : (![0, 0] : Fin 2 → Nat) = fun _ => 0 := funext fun a => by fin_cases a <;> rfl

/-- The argument array as the region finds it, at its literal type. -/
abbrev src (c : Dev nD) : S8192x8192.Idx → Elt F .f32 := V m c main_arg0

/-- The two index maps, decided over the 32 grid points: the input's block index is the output's on both axes,
    the column block is always 0, and the row block stays below 32. -/
theorem same_block : ∀ t : Fin cfg0.N, win0_0.index t (0 : Fin 2) = win0_1.index t (0 : Fin 2)
    ∧ win0_0.index t (1 : Fin 2) = win0_1.index t (1 : Fin 2)
    ∧ win0_1.index t (1 : Fin 2) = 0
    ∧ win0_1.index t (0 : Fin 2) ≤ 31 :=
  (by decide +kernel : ∀ t : Fin grid0.N, _)

/-- Every row block is some grid point's. -/
theorem row_block_onto : ∀ q : Fin 32, ∃ t : Fin cfg0.N, win0_1.index t = ![q.val, 0] :=
  (by decide +kernel : ∀ q : Fin 32, ∃ t : Fin grid0.N, win0_1.index t = ![q.val, 0])

/-- What point `t` writes back is block `t` of the argument array: the body stores what it loaded, and the
    input's block sits at the same rows and columns as the output's. -/
theorem flushed_eq (c : Dev nD) (t : Fin cfg0.N) :
    (dats m 0 c).flushed 1 t = ((cfg0.win 1).blk t).view.read (Elt F) (src m c) := by
  rw [Value.flushed1]
  unfold out0_1
  rw [View.canon_unit_zero origin]
  simp only [View.ld_unit_zero (S := S256x8192) origin]
  obtain ⟨e0, e1, e2, e3⟩ := same_block t
  funext j
  show V m c main_arg0 (((cfg0.win 0).blk t).view.emb j) = V m c main_arg0 (((cfg0.win 1).blk t).view.emb j)
  have h0 : ((cfg0.win 0).blk t).view.emb j = ((cfg0.win 1).blk t).view.emb j := by
    funext a; apply Fin.ext
    match a with
    | ⟨0, _⟩ => show win0_0.index t (0 : Fin 2) * 256 + 1 * (j 0).val = win0_1.index t (0 : Fin 2) * 256 + 1 * (j 0).val; omega
    | ⟨1, _⟩ => show win0_0.index t (1 : Fin 2) * 8192 + 1 * (j 1).val = win0_1.index t (1 : Fin 2) * 8192 + 1 * (j 1).val; omega
  rw [h0]

/-- An index of the result array lies in point `t`'s block iff each coordinate is in the block's range. -/
theorem mem_block (t : Fin cfg0.N) (i : S8192x8192.Idx) :
    i ∈ ((cfg0.win 1).blk t).view.set ↔ ∀ a : Fin 2, win0_1.index t a * S256x8192.size a ≤ (i a).val ∧ (i a).val < win0_1.index t a * S256x8192.size a + S256x8192.size a := by
  show i ∈ ((View.whole main_v0).slice (win0_1.rect t)).set ↔ _
  rw [View.set_slice_whole, Rect.mem_set_unit]
  exact Iff.rfl

/-- The blocks tile the array: row `r` is in the block of the point whose row block is `r / 256`. -/
theorem covered (i : S8192x8192.Idx) :
    ∃ t : Fin cfg0.N, (cfg0.win 1).flush t = true ∧ i ∈ ((cfg0.win 1).blk t).view.set := by
  have hi0 : (i 0).val < 8192 := (i 0).isLt
  have hi1 : (i 1).val < 8192 := (i 1).isLt
  obtain ⟨t, ht⟩ := row_block_onto ⟨(i 0).val / 256, by omega⟩
  have q0 : win0_1.index t (0 : Fin 2) = (i 0).val / 256 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 8192 ≤ (i 1).val ∧ (i 1).val < win0_1.index t (1 : Fin 2) * 8192 + 8192; omega

/-- The result array after the run is the argument array as launched. -/
theorem final (c : Dev nD) : (dats m 0 c).arrAt 1 cfg0.N = m ((c : Thread nD τ).loc main_arg0) :=
  ((dats m 0 c).arrAt_eq_of_cover 1 (src m c) (fun t _ => flushed_eq m c t) covered).trans (V_main_arg0 m c)

/-- The kernel's run: the result array ends holding the argument array, which is unchanged. -/
theorem run : θ_run defs (onTc (τ := τ) (main (F := F))) ⟨m, fun _ => 0, ρ⟩ fun r => ∀ c : Dev nD,
      r.2.mem ((c : Thread nD τ).loc main_v0) = m ((c : Thread nD τ).loc main_arg0)
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.CopyValue

end
-- ==== Proof.RefRun.lean ====
/-
  The reference program returns its argument: @main has no operation at all, so its run is the run of the
  empty line of host operations. Every weakly fair execution stops at once, and every TensorCore buffer,
  the argument array among them, holds what it held at the launch.
-/
import proofs.«122735_j27848567947409_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations: none. -/
abbrev ops : List (HloOp τ sig (Elt F)) := []

/-- @main is the empty line: it only returns. -/
theorem main_eq (c : Dev nD) : main (F := F) c = seq ops := rfl

/-- No buffer of the reference is scoped, -/
theorem scopedRefs_eq : (Finset.univ.filter fun b : Ref sig .tc => b.isScoped) = ∅ := by decide
/-- and no semaphore is. -/
theorem scopedSems_eq : (Finset.univ.filter fun sm : SemLoc sig => sm.isScoped .tc) = ∅ := by decide

/-- From any memory with zero counters every weakly fair execution of @main terminates, and the argument
    array — which is also the result — ends as it was launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0) :=
  (θ_run defs _ _).mono (fun _ h c => (h c main_arg0).trans (by after_results))
    (run_seq scopedRefs_eq scopedSems_eq defs main (fun _ => ops) main_eq (fun _ => trivial) m ρ)

end Cert.ReferenceIdeal.RefRun

end
-- ==== Proof.lean ====
/-
  A copy kernel against the identity. The kernel streams the f32[8192, 8192] argument through VMEM in 32 blocks
  of 256 whole rows and stores each block unchanged into the same rows of a fresh result array; the reference
  returns its argument. No float operation is applied on either side, so the two results are the same array of
  extended reals entry by entry, whatever the entries are: the finiteness of the input is never used.

  * The word-level kernel and its idealization: both run, fault-free, with the argument unchanged (their frames).
  * The reference has no operation to run: it stops at once with every buffer as launched (Proof/RefRun.lean).
  * The idealization rewrote nothing, so there is nothing to preserve.
  * The idealized kernel's result array ends holding the argument array (Proof/CopyValue.lean: what a grid point
    writes back is that point's block of the argument, and the blocks tile the array); the reference's result IS
    its argument array, and the two arguments agree by hypothesis.
-/
import proofs.«122735_j27848567947409_1_alg».proof.Defs
import proofs.«122735_j27848567947409_1_alg».proof.Proof.Gen.Kernel
import proofs.«122735_j27848567947409_1_alg».proof.Proof.Gen.Kernel.Skeleton
import proofs.«122735_j27848567947409_1_alg».proof.Proof.Gen.Kernel.Launch
import proofs.«122735_j27848567947409_1_alg».proof.Proof.Gen.Kernel.Points
import proofs.«122735_j27848567947409_1_alg».proof.Proof.Gen.Kernel.Frame
import proofs.«122735_j27848567947409_1_alg».proof.Proof.Gen.KernelIdeal
import proofs.«122735_j27848567947409_1_alg».proof.Proof.Gen.KernelIdeal.Skeleton
import proofs.«122735_j27848567947409_1_alg».proof.Proof.Gen.KernelIdeal.Launch
import proofs.«122735_j27848567947409_1_alg».proof.Proof.Gen.KernelIdeal.Points
import proofs.«122735_j27848567947409_1_alg».proof.Proof.Gen.KernelIdeal.Frame
import proofs.«122735_j27848567947409_1_alg».proof.Proof.Gen.ReferenceIdeal
import proofs.«122735_j27848567947409_1_alg».proof.Proof.Gen.Pre_finite_inputs
import proofs.«122735_j27848567947409_1_alg».proof.Proof.CopyValue
import proofs.«122735_j27848567947409_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel runs and leaves its argument as it was. -/
theorem frame_kernel [Cert.Kernel.Facts] [Cert.Pre_finite_inputs.Facts] : Cert.frame_Kernel :=
  fun m ρ _ => Cert.Kernel.Gen.frame m ρ

/-- So does its idealization. -/
theorem frame_kernel_ideal [Cert.KernelIdeal.Facts] [Cert.Pre_finite_inputs.Facts] : Cert.frame_KernelIdeal :=
  fun m ρ _ => Cert.KernelIdeal.Gen.frame m ρ

/-- The reference stops at once with its argument as launched. -/
theorem frame_reference [Cert.ReferenceIdeal.Facts] [Cert.Pre_finite_inputs.Facts] : Cert.frame_ReferenceIdeal :=
  fun m ρ _ => Cert.ReferenceIdeal.RefRun.run (F := Ideal) m ρ

/-- Both programs end with the argument array as their result: the kernel's result array is a blockwise copy of
    it, the reference's result is the array itself, and the two arguments agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => m ((c.tc : Thread Cert.KernelIdeal.nD Cert.KernelIdeal.τ).loc Cert.KernelIdeal.main_arg0),
    Cert.KernelIdeal.CopyValue.run (F := Ideal) m ρ, ?_⟩
  exact (θ_run Cert.ReferenceIdeal.defs _ _).mono (fun _ h c => ⟨(h c).trans (hagree c), h c⟩)
    (Cert.ReferenceIdeal.RefRun.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
